-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x512x64 : Shape := ⟨4, ![2, 8, 512, 64]⟩
abbrev S16x512x64 : Shape := ⟨3, ![16, 512, 64]⟩
abbrev S16x512x512 : Shape := ⟨3, ![16, 512, 512]⟩
abbrev S1x128x64 : Shape := ⟨3, ![1, 128, 64]⟩
abbrev S1x128x128 : Shape := ⟨3, ![1, 128, 128]⟩
abbrev S128x64 : Shape := ⟨2, ![128, 64]⟩
abbrev S128x1x64 : Shape := ⟨3, ![128, 1, 64]⟩
abbrev S128x128x64 : Shape := ⟨3, ![128, 128, 64]⟩
abbrev S128x128 : Shape := ⟨2, ![128, 128]⟩
abbrev S2x8x512x512 : Shape := ⟨4, ![2, 8, 512, 512]⟩
abbrev S2x512x512x8 : Shape := ⟨4, ![2, 512, 512, 8]⟩

abbrev nBuf : Space → Nat
  | .hbm => 9
  | .vmem => 6
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x512x64, .f32⟩
  | .hbm, ⟨3, _⟩ => ⟨S16x512x64, .f32⟩
  | .hbm, ⟨4, _⟩ => ⟨S2x8x512x64, .f32⟩
  | .hbm, ⟨5, _⟩ => ⟨S16x512x64, .f32⟩
  | .hbm, ⟨6, _⟩ => ⟨S16x512x512, .f32⟩
  | .hbm, ⟨7, _⟩ => ⟨S2x8x512x512, .f32⟩
  | .hbm, ⟨8, _⟩ => ⟨S2x512x512x8, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x128, .f32⟩
  | .local _ .vmem, ⟨5, _⟩ => ⟨S1x128x128, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S2x512x8x64_S2x8x512x64_0_2_1_3 : S2x512x8x64.Transposes [0, 2, 1, 3] S2x8x512x64
  shapeCasts_S2x8x512x64_S16x512x64 : S2x8x512x64.ShapeCasts S16x512x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S16x512x512_S2x8x512x512 : S16x512x512.ShapeCasts S2x8x512x512
  transposes_S2x8x512x512_S2x512x512x8_0_2_3_1 : S2x8x512x512.Transposes [0, 2, 3, 1] S2x512x512x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S16x512x64.size a
  hwx0_0 : ∀ i : grid0.Coords, EltTy.bits .f32 = 32 ∨ (Rect.block (s := S16x512x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S16x512x64.size a
  hwx0_1 : ∀ i : grid0.Coords, EltTy.bits .f32 = 32 ∨ (Rect.block (s := S16x512x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S16x512x512.size a
  hwx0_2 : ∀ i : grid0.Coords, EltTy.bits .f32 = 32 ∨ (Rect.block (s := S16x512x512) S1x128x128.size (cc0_transform_2 i) (hinb0_2 i)).WholeWords (EltTy.packing .f32)

variable [Facts₀]

abbrev win0_0 : Pipeline.Window sig grid0 :=
  Pipeline.Window.ofSpec (Memref.whole main_v1) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S_ : Shape := ⟨0, ![]⟩
abbrev S2x512x1x64 : Shape := ⟨4, ![2, 512, 1, 64]⟩
abbrev S2x512x64 : Shape := ⟨3, ![2, 512, 64]⟩
abbrev S2x1x512x64 : Shape := ⟨4, ![2, 1, 512, 64]⟩
abbrev S2x512x512x64 : Shape := ⟨4, ![2, 512, 512, 64]⟩
abbrev S2x512x512 : Shape := ⟨3, ![2, 512, 512]⟩
abbrev S2x512x512x1 : Shape := ⟨4, ![2, 512, 512, 1]⟩
abbrev S2x512x512x8 : Shape := ⟨4, ![2, 512, 512, 8]⟩

abbrev nBuf : Space → Nat
  | .hbm => 135
  | .vmem => 0
  | .smem => 0
  | _ => 0

abbrev hbmTy0_0 (i : Nat) : BufTy := match i % 128 with
  | 0 => ⟨S2x512x8x64, .f32⟩
  | 1 => ⟨S2x512x8x64, .f32⟩
  | 2 => ⟨S_, .f32⟩
  | 3 => ⟨S_, .f32⟩
  | 4 => ⟨S_, .f32⟩
  | 5 => ⟨S_, .f32⟩
  | 6 => ⟨S2x512x1x64, .f32⟩
  | 7 => ⟨S2x512x64, .f32⟩
  | 8 => ⟨S2x512x1x64, .f32⟩
  | 9 => ⟨S2x512x64, .f32⟩
  | 10 => ⟨S2x512x1x64, .f32⟩
  | 11 => ⟨S2x1x512x64, .f32⟩
  | 12 => ⟨S2x512x512x64, .f32⟩
  | 13 => ⟨S2x512x512x64, .f32⟩
  | 14 => ⟨S2x512x512x64, .f32⟩
  | 15 => ⟨S2x512x512x64, .f32⟩
  | 16 => ⟨S_, .f32⟩
  | 17 => ⟨S2x512x512, .f32⟩
  | 18 => ⟨S2x512x512, .f32⟩
  | 19 => ⟨S2x512x512, .f32⟩
  | 20 => ⟨S2x512x512, .f32⟩
  | 21 => ⟨S2x512x1x64, .f32⟩
  | 22 => ⟨S2x512x64, .f32⟩
  | 23 => ⟨S2x512x1x64, .f32⟩
  | 24 => ⟨S2x512x64, .f32⟩
  | 25 => ⟨S2x512x1x64, .f32⟩
  | 26 => ⟨S2x1x512x64, .f32⟩
  | 27 => ⟨S2x512x512x64, .f32⟩
  | 28 => ⟨S2x512x512x64, .f32⟩
  | 29 => ⟨S2x512x512x64, .f32⟩
  | 30 => ⟨S2x512x512x64, .f32⟩
  | 31 => ⟨S_, .f32⟩
  | 32 => ⟨S2x512x512, .f32⟩
  | 33 => ⟨S2x512x512, .f32⟩
  | 34 => ⟨S2x512x512, .f32⟩
  | 35 => ⟨S2x512x512, .f32⟩
  | 36 => ⟨S2x512x1x64, .f32⟩
  | 37 => ⟨S2x512x64, .f32⟩
  | 38 => ⟨S2x512x1x64, .f32⟩
  | 39 => ⟨S2x512x64, .f32⟩
  | 40 => ⟨S2x512x1x64, .f32⟩
  | 41 => ⟨S2x1x512x64, .f32⟩
  | 42 => ⟨S2x512x512x64, .f32⟩
  | 43 => ⟨S2x512x512x64, .f32⟩
  | 44 => ⟨S2x512x512x64, .f32⟩
  | 45 => ⟨S2x512x512x64, .f32⟩
  | 46 => ⟨S_, .f32⟩
  | 47 => ⟨S2x512x512, .f32⟩
  | 48 => ⟨S2x512x512, .f32⟩
  | 49 => ⟨S2x512x512, .f32⟩
  | 50 => ⟨S2x512x512, .f32⟩
  | 51 => ⟨S2x512x1x64, .f32⟩
  | 52 => ⟨S2x512x64, .f32⟩
  | 53 => ⟨S2x512x1x64, .f32⟩
  | 54 => ⟨S2x512x64, .f32⟩
  | 55 => ⟨S2x512x1x64, .f32⟩
  | 56 => ⟨S2x1x512x64, .f32⟩
  | 57 => ⟨S2x512x512x64, .f32⟩
  | 58 => ⟨S2x512x512x64, .f32⟩
  | 59 => ⟨S2x512x512x64, .f32⟩
  | 60 => ⟨S2x512x512x64, .f32⟩
  | 61 => ⟨S_, .f32⟩
  | 62 => ⟨S2x512x512, .f32⟩
  | 63 => ⟨S2x512x512, .f32⟩
  | 64 => ⟨S2x512x512, .f32⟩
  | 65 => ⟨S2x512x512, .f32⟩
  | 66 => ⟨S2x512x1x64, .f32⟩
  | 67 => ⟨S2x512x64, .f32⟩
  | 68 => ⟨S2x512x1x64, .f32⟩
  | 69 => ⟨S2x512x64, .f32⟩
  | 70 => ⟨S2x512x1x64, .f32⟩
  | 71 => ⟨S2x1x512x64, .f32⟩
  | 72 => ⟨S2x512x512x64, .f32⟩
  | 73 => ⟨S2x512x512x64, .f32⟩
  | 74 => ⟨S2x512x512x64, .f32⟩
  | 75 => ⟨S2x512x512x64, .f32⟩
  | 76 => ⟨S_, .f32⟩
  | 77 => ⟨S2x512x512, .f32⟩
  | 78 => ⟨S2x512x512, .f32⟩
  | 79 => ⟨S2x512x512, .f32⟩
  | 80 => ⟨S2x512x512, .f32⟩
  | 81 => ⟨S2x512x1x64, .f32⟩
  | 82 => ⟨S2x512x64, .f32⟩
  | 83 => ⟨S2x512x1x64, .f32⟩
  | 84 => ⟨S2x512x64, .f32⟩
  | 85 => ⟨S2x512x1x64, .f32⟩
  | 86 => ⟨S2x1x512x64, .f32⟩
  | 87 => ⟨S2x512x512x64, .f32⟩
  | 88 => ⟨S2x512x512x64, .f32⟩
  | 89 => ⟨S2x512x512x64, .f32⟩
  | 90 => ⟨S2x512x512x64, .f32⟩
  | 91 => ⟨S_, .f32⟩
  | 92 => ⟨S2x512x512, .f32⟩
  | 93 => ⟨S2x512x512, .f32⟩
  | 94 => ⟨S2x512x512, .f32⟩
  | 95 => ⟨S2x512x512, .f32⟩
  | 96 => ⟨S2x512x1x64, .f32⟩
  | 97 => ⟨S2x512x64, .f32⟩
  | 98 => ⟨S2x512x1x64, .f32⟩
  | 99 => ⟨S2x512x64, .f32⟩
  | 100 => ⟨S2x512x1x64, .f32⟩
  | 101 => ⟨S2x1x512x64, .f32⟩
  | 102 => ⟨S2x512x512x64, .f32⟩
  | 103 => ⟨S2x512x512x64, .f32⟩
  | 104 => ⟨S2x512x512x64, .f32⟩
  | 105 => ⟨S2x512x512x64, .f32⟩
  | 106 => ⟨S_, .f32⟩
  | 107 => ⟨S2x512x512, .f32⟩
  | 108 => ⟨S2x512x512, .f32⟩
  | 109 => ⟨S2x512x512, .f32⟩
  | 110 => ⟨S2x512x512, .f32⟩
  | 111 => ⟨S2x512x1x64, .f32⟩
  | 112 => ⟨S2x512x64, .f32⟩
  | 113 => ⟨S2x512x1x64, .f32⟩
  | 114 => ⟨S2x512x64, .f32⟩
  | 115 => ⟨S2x512x1x64, .f32⟩
  | 116 => ⟨S2x1x512x64, .f32⟩
  | 117 => ⟨S2x512x512x64, .f32⟩
  | 118 => ⟨S2x512x512x64, .f32⟩
  | 119 => ⟨S2x512x512x64, .f32⟩
  | 120 => ⟨S2x512x512x64, .f32⟩
  | 121 => ⟨S_, .f32⟩
  | 122 => ⟨S2x512x512, .f32⟩
  | 123 => ⟨S2x512x512, .f32⟩
  | 124 => ⟨S2x512x512, .f32⟩
  | 125 => ⟨S2x512x512, .f32⟩
  | 126 => ⟨S2x512x512x1, .f32⟩
  | 127 => ⟨S2x512x512x1, .f32⟩
  | _ => ⟨S2x512x8x64, .f32⟩

abbrev hbmTy0_1 (i : Nat) : BufTy := match i % 128 with
  | 0 => ⟨S2x512x512x1, .f32⟩
  | 1 => ⟨S2x512x512x1, .f32⟩
  | 2 => ⟨S2x512x512x1, .f32⟩
  | 3 => ⟨S2x512x512x1, .f32⟩
  | 4 => ⟨S2x512x512x1, .f32⟩
  | 5 => ⟨S2x512x512x1, .f32⟩
  | 6 => ⟨S2x512x512x8, .f32⟩
  | _ => ⟨S2x512x8x64, .f32⟩

abbrev hbmTy (i : Nat) : BufTy := match i / 128 with
  | 0 => hbmTy0_0 i
  | 1 => hbmTy0_1 i
  | _ => ⟨S2x512x8x64, .f32⟩

abbrev bufTy : (tb : Table) → Fin (tcTables nBuf tb) → BufTy
  | .hbm, ⟨i, _⟩ => hbmTy i
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_6 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_7 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_cst_8 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩

abbrev nD : Nat := 1
abbrev τ : Topo := Topo.v7x

variable {F : FTy → Type} [FloatOps F]

class Facts₀ : Prop where
  slices_S2x512x8x64_S2x512x1x64_0_0_0_0 : S2x512x8x64.Slices ![0, 0, 0, 0] S2x512x1x64
  shapeCasts_S2x512x1x64_S2x512x64 : S2x512x1x64.ShapeCasts S2x512x64
  bcast_S2x512x64_S2x512x1x64_0_1_3 : S2x512x64.BroadcastsInDim S2x512x1x64 (![0, 1, 3] : Fin 3 → Fin S2x512x1x64.rank)
  bcast_S2x512x64_S2x1x512x64_0_2_3 : S2x512x64.BroadcastsInDim S2x1x512x64 (![0, 2, 3] : Fin 3 → Fin S2x1x512x64.rank)
  bcast_S2x512x1x64_S2x512x512x64_0_1_2_3 : S2x512x1x64.BroadcastsInDim S2x512x512x64 (![0, 1, 2, 3] : Fin 4 → Fin S2x512x512x64.rank)
  bcast_S2x1x512x64_S2x512x512x64_0_1_2_3 : S2x1x512x64.BroadcastsInDim S2x512x512x64 (![0, 1, 2, 3] : Fin 4 → Fin S2x512x512x64.rank)
  reducesTo_S2x512x512x64_S2x512x512_d3 : S2x512x512x64.ReducesTo [3] S2x512x512
  h_S_ : 0 < S_.numel
  bcast_S_S2x512x512 : S_.BroadcastsInDim S2x512x512 (![] : Fin 0 → Fin S2x512x512.rank)
  slices_S2x512x8x64_S2x512x1x64_0_0_1_0 : S2x512x8x64.Slices ![0, 0, 1, 0] S2x512x1x64
  slices_S2x512x8x64_S2x512x1x64_0_0_2_0 : S2x512x8x64.Slices ![0, 0, 2, 0] S2x512x1x64
  slices_S2x512x8x64_S2x512x1x64_0_0_3_0 : S2x512x8x64.Slices ![0, 0, 3, 0] S2x512x1x64
  slices_S2x512x8x64_S2x512x1x64_0_0_4_0 : S2x512x8x64.Slices ![0, 0, 4, 0] S2x512x1x64
  slices_S2x512x8x64_S2x512x1x64_0_0_5_0 : S2x512x8x64.Slices ![0, 0, 5, 0] S2x512x1x64
  slices_S2x512x8x64_S2x512x1x64_0_0_6_0 : S2x512x8x64.Slices ![0, 0, 6, 0] S2x512x1x64
  slices_S2x512x8x64_S2x512x1x64_0_0_7_0 : S2x512x8x64.Slices ![0, 0, 7, 0] S2x512x1x64
  bcast_S2x512x512_S2x512x512x1_0_1_2 : S2x512x512.BroadcastsInDim S2x512x512x1 (![0, 1, 2] : Fin 3 → Fin S2x512x512x1.rank)
  concatenates_S2x512x512x1_S2x512x512x1_S2x512x512x1_S2x512x512x1_S2x512x512x1_S2x512x512x1_S2x512x512x1_S2x512x512x1_S2x512x512x8_d3 : Shape.Concatenates [S2x512x512x1, S2x512x512x1, S2x512x512x1, S2x512x512x1, S2x512x512x1, S2x512x512x1, S2x512x512x1, S2x512x512x1] S2x512x512x8 3

variable [Facts₀]

class Facts : Prop extends Facts₀ where

variable [Facts]
-- ==== Proof.KHost.lean ====
/-
  The kernel program's host operations around its one call.

  Before the call the queries and the keys, [batch 2, position 512, head 8, feature 64], are transposed to
  [2, 8, 512, 64] and reshaped to [16, 512, 64]: row `b * 8 + h` of the folded array is head `h` of batch `b`.
  After the call the [16, 512, 512] result is reshaped to [2, 8, 512, 512] and transposed to [2, 512, 512, 8]: entry
  `(b, s, t, h)` of the program's result is entry `(b * 8 + h, s, t)` of the call's.
-/
import proofs.«151528_j41214506173057_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx
open Idealize.SL.Sem

/-- Row `b * 8 + h` of the folded axis. -/
abbrev row (b : Fin 2) (h : Fin 8) : Fin 16 := ⟨b.val * 8 + h.val, by omega⟩

/-- The heads folded into the batch axis: [2, 512, 8, 64] to [16, 512, 64]. -/
def foldHeads (x : S2x512x8x64.Idx → EReal) : S16x512x64.Idx → EReal :=
  shapeCast S16x512x64 (transpose S2x8x512x64 [0, 2, 1, 3] x transposes_S2x512x8x64_S2x8x512x64_0_2_1_3)
    shapeCasts_S2x8x512x64_S16x512x64

/-- Row `b * 8 + h` of the folded array at `(s, d)` is the array at `(b, s, h, d)`. -/
theorem foldHeads_apply (x : S2x512x8x64.Idx → EReal) (b : Fin 2) (h : Fin 8) (s : Fin 512) (d : Fin 64) :
    foldHeads x (ix3 (row b h) s d) = x (ix4 b s h d) := by
  unfold foldHeads
  refine (shapeCast_apply _ _ (ix3 (row b h) s d) (ix4 b h s d) (by
    rw [Shape.rowMajor_val_four, Shape.rowMajor_val_three]
    show ((b.val * 8 + h.val) * 512 + s.val) * 64 + d.val = ((b.val * 8 + h.val) * 512 + s.val) * 64 + d.val
    rfl)).trans ?_
  exact transpose_apply _ x _ (ix4 b h s d) (ix4 b s h d) (fun a => by
    match a with
    | ⟨0, _⟩ => rfl
    | ⟨1, _⟩ => rfl
    | ⟨2, _⟩ => rfl
    | ⟨3, _⟩ => rfl)

/-- The folded batch axis unfolded into batch and head, the head moved last: [16, 512, 512] to [2, 512, 512, 8]. -/
def unfoldHeads (y : S16x512x512.Idx → EReal) : S2x512x512x8.Idx → EReal :=
  transpose S2x512x512x8 [0, 2, 3, 1] (shapeCast S2x8x512x512 y shapeCasts_S16x512x512_S2x8x512x512)
    transposes_S2x8x512x512_S2x512x512x8_0_2_3_1

/-- Entry `(b, s, t, h)` of the unfolded array is entry `(b * 8 + h, s, t)` of the array. -/
theorem unfoldHeads_apply (y : S16x512x512.Idx → EReal) (b : Fin 2) (s t : Fin 512) (h : Fin 8) :
    unfoldHeads y (ix4 b s t h) = y (ix3 (row b h) s t) := by
  unfold unfoldHeads
  refine (transpose_apply _ _ _ (ix4 b s t h) (ix4 b h s t) (fun a => by
    match a with
    | ⟨0, _⟩ => rfl
    | ⟨1, _⟩ => rfl
    | ⟨2, _⟩ => rfl
    | ⟨3, _⟩ => rfl)).trans ?_
  exact shapeCast_apply y _ (ix4 b h s t) (ix3 (row b h) s t) (by
    rw [Shape.rowMajor_val_four, Shape.rowMajor_val_three]
    show ((b.val * 8 + h.val) * 512 + s.val) * 512 + t.val = ((b.val * 8 + h.val) * 512 + s.val) * 512 + t.val
    rfl)

variable (m : (ℓ : Loc nD τ sig) → Buf (Elt Ideal) ℓ)

/-- The call's first operand, as the call finds it, is the queries with the heads folded. -/
theorem V_queries (c : Dev nD) :
    (V m c main_v1 : S16x512x64.Idx → EReal) = foldHeads (m ((c : Thread nD τ).loc main_arg0)) := by
  show StableHlo.after hostOps0 (fun b => m (c, b)) (Proc.devRef .tc main_v1) = _
  after_results
  rfl

/-- The call's second operand, as the call finds it, is the keys with the heads folded. -/
theorem V_keys (c : Dev nD) :
    (V m c main_v3 : S16x512x64.Idx → EReal) = foldHeads (m ((c : Thread nD τ).loc main_arg1)) := by
  show StableHlo.after hostOps0 (fun b => m (c, b)) (Proc.devRef .tc main_v3) = _
  after_results
  rfl

/-- The program's result is the call's result array, unfolded. -/
theorem tail_result (c : Dev nD) :
    (Pipeline.afterTail₀ cfgs (dats m) 0 (V0 m) [hostOps1] c main_v6 : S2x512x512x8.Idx → EReal)
      = unfoldHeads ((dats m 0 c).arrAt 2 cfg0.N) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = (dats m 0 c).arrAt 2 cfg0.N :=
    Pipeline.withArrays_arr spec0 launch0.win.arr_inj c (V0 m c) _ 2
  rw [e]
  rfl

end Cert.KernelIdeal.Host

end
-- ==== Proof.Spec.lean ====
/-
  The specification: what both programs compute, as one function of the two argument arrays.

  For queries `q` and keys `k` of shape [batch 2, position 512, head 8, feature 64], the score of query position `s`
  against key position `t` in batch `b` and head `h` is minus one eighth of the L1 distance between the two feature
  rows:  `scores q k (b, s, t, h) = -0.125 * Σ_d |q (b, s, h, d) - k (b, t, h, d)|`,
  with `|x|` written `max x (-x)`, as the ideal values read an absolute value.
-/
import Idealize.ShloMosaic.PureOps.Ideal
import Idealize.ShloMosaic.Lib.ValueIdx

noncomputable section

namespace Cert.L1Scores

open Idealize.ShloMosaic Idealize.ShloMosaic.ValueIdx

/-- The shape of the queries and of the keys: [batch, position, head, feature]. -/
abbrev QK : Shape := ⟨4, ![2, 512, 8, 64]⟩
/-- The shape of the scores: [batch, query position, key position, head]. -/
abbrev Scores : Shape := ⟨4, ![2, 512, 512, 8]⟩

/-- `|a - b|` on the extended reals. -/
def absDiff (a b : EReal) : EReal := max (a - b) (-(a - b))

/-- The L1 distance between query row `(b, s, h)` and key row `(b, t, h)`. -/
def dist (q k : QK.Idx → EReal) (b : Fin 2) (s t : Fin 512) (h : Fin 8) : EReal :=
  ∑ d : Fin 64, absDiff (q (ix4 b s h d)) (k (ix4 b t h d))

/-- The scores: the kernel's scale times the distance, at every (batch, query, key, head). -/
def scores (q k : QK.Idx → EReal) : Scores.Idx → EReal :=
  fun i => Ideal.ofBits .f32 0xBE000000#32 * dist q k (i 0) (i 1) (i 2) (i 3)

theorem scores_apply (q k : QK.Idx → EReal) (b : Fin 2) (s t : Fin 512) (h : Fin 8) :
    scores q k (ix4 b s t h) = Ideal.ofBits .f32 0xBE000000#32 * dist q k b s t h := rfl

end Cert.L1Scores

end
-- ==== Proof.KBody.lean ====
/-
  The kernel body at one grid point, read at an index.

  The body loads a block `x0` of 128 query rows and a block `x1` of 128 key rows (each [1, 128, 64]), and stores the
  [1, 128, 128] block whose entry `(p, r)` is `-0.125 * Σ_d |x0 (p, d) - x1 (r, d)|`: the query rows are repeated along
  a new middle axis, the key rows along a new leading axis, the difference's absolute value is summed over the feature
  axis, and the sum is scaled. Each layout step reads its operand at one index; the lane sum is a sum over `Fin 64`.
-/
import proofs.«151528_j41214506173057_1_alg».proof.Proof.Gen.KernelIdeal.Skeleton
import proofs.«151528_j41214506173057_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.L1Scores

/-- The query block repeated along the key axis reads, at `(p, r, d)`, query row `p` at feature `d`. -/
theorem qrows_apply (x : S1x128x64.Idx → EReal) (p r : Fin 128) (d : Fin 64) :
    broadcastTo S128x128x64 (shapeCast S128x1x64 (shapeCast S128x64 x shapeCasts_S1x128x64_S128x64) shapeCasts_S128x64_S128x1x64)
        broadcasts_S128x1x64_S128x128x64 (ix3 p r d)
      = x (ix3 (0 : Fin 1) p d) := by
  refine (broadcastTo_apply _ _ (ix3 p r d) (ix3 p (0 : Fin 1) d) (fun a => by
    match a with
    | ⟨0, _⟩ => rfl
    | ⟨1, _⟩ => rfl
    | ⟨2, _⟩ => rfl)).trans ?_
  refine (shapeCast_apply _ _ (ix3 p (0 : Fin 1) d) (ix2 p d) (by
    rw [Shape.rowMajor_val_two, Shape.rowMajor_val_three]
    show p.val * 64 + d.val = (p.val * 1 + 0) * 64 + d.val
    omega)).trans ?_
  exact shapeCast_1ab_ab_apply x _ p d

/-- The key block repeated along the query axis reads, at `(p, r, d)`, key row `r` at feature `d`. -/
theorem krows_apply (x : S1x128x64.Idx → EReal) (p r : Fin 128) (d : Fin 64) :
    broadcastTo S128x128x64 (shapeCast S1x128x64 (shapeCast S128x64 x shapeCasts_S1x128x64_S128x64) shapeCasts_S128x64_S1x128x64)
        broadcasts_S1x128x64_S128x128x64 (ix3 p r d)
      = x (ix3 (0 : Fin 1) r d) := by
  refine (broadcastTo_apply _ _ (ix3 p r d) (ix3 (0 : Fin 1) r d) (fun a => by
    match a with
    | ⟨0, _⟩ => rfl
    | ⟨1, _⟩ => rfl
    | ⟨2, _⟩ => rfl)).trans ?_
  refine (shapeCast_ab_1ab_apply _ _ (0 : Fin 1) r d).trans ?_
  exact shapeCast_1ab_ab_apply x _ r d

/-- The index the lane sum reads at feature `d` of entry `(p, r)` is `(p, r, d)`. -/
theorem lift_eq (p r : Fin 128) (d : Fin 64) :
    (reduces_S128x128x64_S128x128).lift (ix2 p r) d = ix3 p r d := by
  funext a
  match a with
  | ⟨0, _⟩ => rfl
  | ⟨1, _⟩ => rfl
  | ⟨2, _⟩ => rfl

/-- The sum over the feature axis of a [128, 128, 64] value, at entry `(p, r)`, is the sum over `d : Fin 64` of the value
    at `(p, r, d)`. -/
theorem rowsum_apply (src : S128x128x64.Idx → EReal) (p r : Fin 128) :
    multiReduction (F := Ideal) .add [2] S128x128 src 0x00000000#32 reduces_S128x128x64_S128x128 (.inl rfl) rfl (ix2 p r)
      = ∑ d : Fin 64, src (ix3 p r d) :=
  (Ideal.multiReduction_add_single src 0x00000000#32 reduces_S128x128x64_S128x128 (.inl rfl) rfl (ix2 p r)).trans
    (Finset.sum_congr rfl fun d _ => congrArg src (lift_eq p r d))

/-- THE BODY'S BLOCK at `(p, r)`: the scale times the L1 distance between query row `p` and key row `r` of the blocks. -/
theorem pay_apply (x0 x1 : S1x128x64.Idx → EReal) (p r : Fin 128) :
    k0_pay1 (F := Ideal) x0 x1 (ix3 (0 : Fin 1) p r)
      = Ideal.ofBits .f32 0xBE000000#32 * ∑ d : Fin 64, absDiff (x0 (ix3 (0 : Fin 1) p d)) (x1 (ix3 (0 : Fin 1) r d)) := by
  unfold k0_pay1
  refine (shapeCast_ab_1ab_apply _ _ (0 : Fin 1) p r).trans ?_
  refine congrArg (Ideal.ofBits .f32 0xBE000000#32 * ·) ?_
  refine (rowsum_apply _ p r).trans ?_
  refine Finset.sum_congr rfl fun d _ => ?_
  show max (_ - _) (-(_ - _)) = _
  rw [qrows_apply, krows_apply]
  rfl

end Cert.KernelIdeal.Body

end
-- ==== Proof.KBlocks.lean ====
/-
  From the grid's blocks to the call's whole result array.

  The call runs on a 16 x 4 x 4 grid. Point `(n, i, j)` reads rows `128 i …` of row-block `n` of the folded queries and
  rows `128 j …` of row-block `n` of the folded keys, and writes the [128, 128] tile `(i, j)` of plane `n` of the
  [16, 512, 512] result. What it writes is the tile of ONE whole-array function of the two operands,
  `pairScores A B (n, s, t) = -0.125 * Σ_d |A (n, s, d) - B (n, t, d)|`, and the 256 tiles cover the result, so the
  result array ends holding `pairScores` of the operands as the call finds them.
-/
import proofs.«151528_j41214506173057_1_alg».proof.Proof.Gen.KernelIdeal.Frame
import proofs.«151528_j41214506173057_1_alg».proof.Proof.KBody
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.L1Scores Cert.KernelIdeal.Body

/-- The scores of every query row against every key row of the same plane of the folded operands. -/
def pairScores (A B : S16x512x64.Idx → EReal) : S16x512x512.Idx → EReal :=
  fun i => Ideal.ofBits .f32 0xBE000000#32 * ∑ d : Fin 64, absDiff (A (ix3 (i 0) (i 1) d)) (B (ix3 (i 0) (i 2) d))

theorem pairScores_apply (A B : S16x512x64.Idx → EReal) (n : Fin 16) (s t : Fin 512) :
    pairScores A B (ix3 n s t)
      = Ideal.ofBits .f32 0xBE000000#32 * ∑ d : Fin 64, absDiff (A (ix3 n s d)) (B (ix3 n t d)) := rfl

theorem zeros : (![0, 0, 0] : Fin 3 → Nat) = fun _ => 0 := funext fun a => by fin_cases a <;> rfl

/-- The three index maps in closed form in the point's number: the plane is `t / 16`, the query tile `t / 4 % 4`, the
    key tile `t % 4`. Decided over the 256 points. -/
theorem tiles : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4
    ∧ win0_2.index t (2 : Fin 3) = t.val % 4 :=
  (by decide +kernel : ∀ t : Fin grid0.N, _)

/-- What one point stores, at block entry `y`, is `pairScores` at array entry `I`, as soon as the point's query block is
    the operand's rows under `I`'s plane and query position, and its key block those under `I`'s plane and key position. -/
theorem point_eq (x0 x1 : S1x128x64.Idx → EReal) (A B : S16x512x64.Idx → EReal) (y : S1x128x128.Idx) (I : S16x512x512.Idx)
    (h0 : ∀ d : Fin 64, x0 (ix3 (0 : Fin 1) (y 1) d) = A (ix3 (I 0) (I 1) d))
    (h1 : ∀ d : Fin 64, x1 (ix3 (0 : Fin 1) (y 2) d) = B (ix3 (I 0) (I 2) d)) :
    k0_pay1 (F := Ideal) x0 x1 y = pairScores A B I := by
  have hy0 : y 0 = (0 : Fin 1) := Fin.ext (by
    have h : (y 0).val < 1 := (y 0).isLt
    show (y 0).val = 0
    omega)
  have hy : y = ix3 (0 : Fin 1) (y 1) (y 2) :=
    (eq_ix3 y).trans (congrArg (fun u : Fin 1 => ix3 u (y 1) (y 2)) hy0)
  refine (congrArg (k0_pay1 (F := Ideal) x0 x1) hy).trans ?_
  refine (pay_apply x0 x1 (y 1) (y 2)).trans ?_
  exact congrArg (Ideal.ofBits .f32 0xBE000000#32 * ·) (Finset.sum_congr rfl fun d _ => by rw [h0 d, h1 d])

variable (m : (ℓ : Loc nD τ sig) → Buf (Elt Ideal) ℓ)

/-- WHAT POINT `t` WRITES BACK is tile `t` of `pairScores` of the two operands as the call finds them. -/
theorem flushed_eq (c : Dev nD) (t : Fin cfg0.N) :
    (dats m 0 c).flushed 2 t
      = ((cfg0.win 2).blk t).view.read (Elt Ideal) (pairScores (V m c main_v1) (V m c main_v3)) := by
  show (cfg0.win 2).cut (grid0.coords t) ((dats m 0 c).after 2 t) = _
  rw [after0_2]
  unfold out0_2
  rw [View.canon_unit_zero zeros]
  simp only [View.ld_unit_zero (S := S1x128x64) zeros]
  obtain ⟨e00, e01, e02, e10, e11, e12, e20, e21, e22⟩ := tiles t
  refine funext fun (j : S1x128x128.Idx) => ?_
  show k0_pay1 (F := Ideal) (iblk m c 0 t) (iblk m c 1 t) j
      = pairScores (V m c main_v1) (V m c main_v3) (((cfg0.win 2).blk t).view.emb j)
  have hj0 : (j 0).val < 1 := (j 0).isLt
  refine point_eq (iblk m c 0 t) (iblk m c 1 t) (V m c main_v1) (V m c main_v3) j (((cfg0.win 2).blk t).view.emb j) ?_ ?_
  · intro d
    show V m c main_v1 (((cfg0.win 0).blk t).view.emb (ix3 (0 : Fin 1) (j 1) d)) = V m c main_v1 _
    have hi : ((cfg0.win 0).blk t).view.emb (ix3 (0 : Fin 1) (j 1) d)
        = ix3 ((((cfg0.win 2).blk t).view.emb j) 0) ((((cfg0.win 2).blk t).view.emb j) 1) d := by
      funext a; apply Fin.ext
      match a with
      | ⟨0, _⟩ => show win0_0.index t (0 : Fin 3) * 1 + 1 * 0 = win0_2.index t (0 : Fin 3) * 1 + 1 * (j 0).val; omega
      | ⟨1, _⟩ => show win0_0.index t (1 : Fin 3) * 128 + 1 * (j 1).val = win0_2.index t (1 : Fin 3) * 128 + 1 * (j 1).val; omega
      | ⟨2, _⟩ => show win0_0.index t (2 : Fin 3) * 64 + 1 * d.val = d.val; omega
    exact congrArg (V m c main_v1) hi
  · intro d
    show V m c main_v3 (((cfg0.win 1).blk t).view.emb (ix3 (0 : Fin 1) (j 2) d)) = V m c main_v3 _
    have hi : ((cfg0.win 1).blk t).view.emb (ix3 (0 : Fin 1) (j 2) d)
        = ix3 ((((cfg0.win 2).blk t).view.emb j) 0) ((((cfg0.win 2).blk t).view.emb j) 2) d := by
      funext a; apply Fin.ext
      match a with
      | ⟨0, _⟩ => show win0_1.index t (0 : Fin 3) * 1 + 1 * 0 = win0_2.index t (0 : Fin 3) * 1 + 1 * (j 0).val; omega
      | ⟨1, _⟩ => show win0_1.index t (1 : Fin 3) * 128 + 1 * (j 2).val = win0_2.index t (2 : Fin 3) * 128 + 1 * (j 2).val; omega
      | ⟨2, _⟩ => show win0_1.index t (2 : Fin 3) * 64 + 1 * d.val = d.val; omega
    exact congrArg (V m c main_v3) hi

/-- An entry of the result array is in point `t`'s tile iff each coordinate is in the tile's range on its axis. -/
theorem mem_tile (t : Fin cfg0.N) (i : S16x512x512.Idx) :
    i ∈ ((cfg0.win 2).blk t).view.set
      ↔ ∀ a : Fin 3, win0_2.index t a * S1x128x128.size a ≤ (i a).val
          ∧ (i a).val < win0_2.index t a * S1x128x128.size a + S1x128x128.size a := by
  show i ∈ ((View.whole main_v4).slice (win0_2.rect t)).set ↔ _
  rw [View.set_slice_whole, Rect.mem_set_unit]
  exact Iff.rfl

/-- Every entry of the result array is in some point's tile: entry `(n, s, t)` in that of point `(n, s / 128, t / 128)`. -/
theorem covered (i : S16x512x512.Idx) :
    ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 512 := (i 2).isLt
  let t : Fin cfg0.N := Fin.cast N_0.symm ⟨(i 0).val * 16 + (i 1).val / 128 * 4 + (i 2).val / 128, by omega⟩
  have ht : t.val = (i 0).val * 16 + (i 1).val / 128 * 4 + (i 2).val / 128 := rfl
  obtain ⟨-, -, -, -, -, -, e20, e21, e22⟩ := tiles t
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- THE CALL'S RESULT ARRAY after the run: `pairScores` of the two operands as the call finds them. -/
theorem final (c : Dev nD) :
    (dats m 0 c).arrAt 2 cfg0.N = pairScores (V m c main_v1) (V m c main_v3) :=
  (dats m 0 c).arrAt_eq_of_cover 2 _ (fun t _ => flushed_eq m c t) covered

end Cert.KernelIdeal.Blocks

end
-- ==== Proof.KValue.lean ====
/-
  The kernel program's result, as the specification of its two arguments.

  The call's result array is `pairScores` of the folded queries and keys; the program's result is that array with the
  folded axis unfolded into batch and head. Entry `(b, s, t, h)` is therefore entry `(b * 8 + h, s, t)` of the call's
  result, which sums `|folded q (b * 8 + h, s, d) - folded k (b * 8 + h, t, d)| = |q (b, s, h, d) - k (b, t, h, d)|`
  over `d`: the specification's score.
-/
import proofs.«151528_j41214506173057_1_alg».proof.Proof.Gen.KernelIdeal.Frame
import proofs.«151528_j41214506173057_1_alg».proof.Proof.KHost
import proofs.«151528_j41214506173057_1_alg».proof.Proof.KBlocks
import proofs.«151528_j41214506173057_1_alg».proof.Proof.Spec

noncomputable section

namespace Cert.KernelIdeal.Scores

open Cert.KernelIdeal Cert.KernelIdeal.Gen Idealize.ShloMosaic Idealize.ShloMosaic.TcCoe Idealize.ShloMosaic.ValueIdx
open Idealize.SL.Sem Cert.L1Scores

variable (m : (ℓ : Loc nD τ sig) → Buf (Elt Ideal) ℓ) (ρ : Dev nD → PrngReg)

/-- The unfolded pair scores of the folded arrays are the specification. -/
theorem unfold_pair_fold (q k : S2x512x8x64.Idx → EReal) :
    Host.unfoldHeads (Blocks.pairScores (Host.foldHeads q) (Host.foldHeads k)) = scores q k := by
  funext i
  obtain ⟨b, s, t, h, rfl⟩ : ∃ (b : Fin 2) (s t : Fin 512) (h : Fin 8), i = ix4 b s t h :=
    ⟨i 0, i 1, i 2, i 3, eq_ix4 i⟩
  rw [Host.unfoldHeads_apply, Blocks.pairScores_apply, scores_apply]
  unfold Cert.L1Scores.dist
  refine congrArg (Ideal.ofBits .f32 0xBE000000#32 * ·) (Finset.sum_congr rfl fun d _ => ?_)
  rw [Host.foldHeads_apply, Host.foldHeads_apply]

/-- THE PROGRAM'S RESULT after the run is the specification of the arguments as launched. -/
theorem result_eq (c : Dev nD) :
    (Pipeline.afterTail₀ cfgs (dats m) 0 (V0 m) [hostOps1] c main_v6 : S2x512x512x8.Idx → EReal)
      = scores (m ((c : Thread nD τ).loc main_arg0)) (m ((c : Thread nD τ).loc main_arg1)) := by
  rw [Host.tail_result, Blocks.final, Host.V_queries, Host.V_keys]
  exact unfold_pair_fold _ _

/-- The run: every weakly fair execution terminates with the result at the specification and the arguments unchanged. -/
theorem run : θ_run defs (onTc (τ := τ) (main (F := Ideal))) ⟨m, fun _ => 0, ρ⟩ fun r => ∀ c : Dev nD,
      r.2.mem ((c.tc : Thread nD τ).loc main_v6)
        = scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Scores

end
-- ==== Proof.Scale.lean ====
/-
  The scale of the scores, on both sides, as extended reals.

  The kernel multiplies each row sum by the literal `-0.125`; the reference negates the row sum and multiplies it by
  `1 / sqrt 64`, computed on the host. At the ideal values `sqrt 64` is the real square root of `64`, which is `8`
  exactly, so the reference's factor is the rational `1/8` and the kernel's is `-(1/8)`. The two products agree on
  every extended real `S`: `(-(1/8)) * S = -((1/8) * S) = -(S * (1/8)) = (-S) * (1/8)`, which uses only that negation
  leaves a product and that the product commutes; no sum is distributed over, so nothing needs `S` finite.
-/
import Idealize.ShloMosaic.PureOps.Ideal

noncomputable section

namespace Cert.L1Scores

open Idealize.ShloMosaic

/-- The kernel's literal `-0.125` denotes `-(1/8)`. -/
theorem ofBits_negEighth : Ideal.ofBits .f32 0xBE000000#32 = ((-(1 / 8) : ℝ) : EReal) := by
  simp [Ideal.ofBits, Ideal.ieee, -EReal.coe_mul]; norm_num

/-- `+0.0`, the initial value of the reference's sum, denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `64.0` denotes the real `64`. -/
theorem ofBits_sixtyFour : Ideal.ofBits .f32 0x42800000#32 = ((64 : ℝ) : EReal) := by
  simp [Ideal.ofBits, Ideal.ieee, -EReal.coe_mul]; norm_num

/-- The real square root of `64` is `8`. -/
theorem sqrt_sixtyFour : Real.sqrt 64 = 8 := by
  rw [show (64 : ℝ) = 8 ^ 2 by norm_num, Real.sqrt_sq (by norm_num)]

/-- The reference's factor `1.0 / sqrt 64.0` is the rational `1/8`. -/
theorem refScale_eq :
    Ideal.div (Ideal.ofBits .f32 0x3F800000#32) (Ideal.sqrt (Ideal.ofBits .f32 0x42800000#32)) = ((1 / 8 : ℝ) : EReal) := by
  rw [ofBits_sixtyFour, Ideal.sqrt_coe, if_neg (by norm_num), sqrt_sixtyFour,
    Ideal.div_coe (by norm_num : (8 : ℝ) ≠ 0), ofBits_one, one_mul]

/-- THE LAW that joins the two sides: the kernel's `-0.125 * S` is the reference's `(-(0 + S)) * (1 / sqrt 64)`, for
    every extended real `S`. -/
theorem scale_law (S : EReal) :
    Ideal.ofBits .f32 0xBE000000#32 * S
      = (-(Ideal.ofBits .f32 0x00000000#32 + S))
          * Ideal.div (Ideal.ofBits .f32 0x3F800000#32) (Ideal.sqrt (Ideal.ofBits .f32 0x42800000#32)) := by
  rw [refScale_eq, ofBits_negEighth, ofBits_zero, zero_add, EReal.coe_neg, neg_mul, neg_mul, mul_comm]

end Cert.L1Scores

end
-- ==== Proof.RHead.lean ====
/-
  One head of the reference, read at an index.

  For head `h` the reference cuts the queries and the keys at head `h` ([2, 512, 1, 64], reshaped to [2, 512, 64]),
  repeats the query rows along a new key axis and the key rows along a new query axis ([2, 512, 512, 64]), sums the
  absolute difference over the feature axis from the initial value `0`, negates the sum and multiplies it by
  `1 / sqrt 64`; the [2, 512, 512] result gets a trailing unit axis for the stack. The eight heads are the same text
  with the cut's offset changed, so the head is stated once with the offset a variable. At `(b, s, t)` it is
  `(-(0 + Σ_d |q (b, s, h, d) - k (b, t, h, d)|)) * (1 / sqrt 64)`, which the scale law turns into the specification.
-/
import proofs.«151528_j41214506173057_1_alg».proof.Proof.Gen.ReferenceIdeal
import proofs.«151528_j41214506173057_1_alg».proof.Proof.Spec
import proofs.«151528_j41214506173057_1_alg».proof.Proof.Scale
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Heads

open Cert.ReferenceIdeal Cert.ReferenceIdeal.Gen Idealize.ShloMosaic Idealize.ShloMosaic.ValueIdx Cert.L1Scores

/-- The rows of the array cut at head offset `o`, as a [2, 512, 64] array. -/
def headRows (o : Nat) (hs : S2x512x8x64.Slices ![0, 0, o, 0] S2x512x1x64) (x : S2x512x8x64.Idx → EReal) :
    S2x512x64.Idx → EReal :=
  shapeCast S2x512x64 (extractStridedSlice S2x512x1x64 ![0, 0, o, 0] x hs) shapeCasts_S2x512x1x64_S2x512x64

/-- Row `(b, s)` of the cut at feature `d` is the array at `(b, s, h, d)`, `h` the head the offset names. -/
theorem headRows_apply (o : Nat) (hs : S2x512x8x64.Slices ![0, 0, o, 0] S2x512x1x64) (x : S2x512x8x64.Idx → EReal)
    (h : Fin 8) (ho : h.val = o) (b : Fin 2) (s : Fin 512) (d : Fin 64) :
    headRows o hs x (ix3 b s d) = x (ix4 b s h d) := by
  unfold headRows
  refine (shapeCast_apply _ _ (ix3 b s d) (ix4 b s (0 : Fin 1) d) (by
    rw [Shape.rowMajor_val_four, Shape.rowMajor_val_three]
    show ((b.val * 512 + s.val) * 1 + 0) * 64 + d.val = (b.val * 512 + s.val) * 64 + d.val
    omega)).trans ?_
  exact slice4_axis2_apply o x hs b s (0 : Fin 1) d h (by show h.val = o + 0; omega)

/-- One head's scores, with the trailing unit axis the stack joins along: the reference's text for a head, the cut's
    offset a variable. -/
def headScores (o : Nat) (hs : S2x512x8x64.Slices ![0, 0, o, 0] S2x512x1x64) (q k : S2x512x8x64.Idx → EReal) :
    S2x512x512x1.Idx → EReal :=
  broadcastInDim S2x512x512x1 ![0, 1, 2] bcast_S2x512x512_S2x512x512x1_0_1_2
    (mulf (F := Ideal) (φ := .f32)
      (Host.negf (Host.reduceAdd (F := Ideal) (φ := .f32)
        (Host.absf (subf
          (broadcastInDim S2x512x512x64 ![0, 1, 2, 3] bcast_S2x512x1x64_S2x512x512x64_0_1_2_3
            (broadcastInDim S2x512x1x64 ![0, 1, 3] bcast_S2x512x64_S2x512x1x64_0_1_3 (headRows o hs q)))
          (broadcastInDim S2x512x512x64 ![0, 1, 2, 3] bcast_S2x1x512x64_S2x512x512x64_0_1_2_3
            (broadcastInDim S2x1x512x64 ![0, 2, 3] bcast_S2x512x64_S2x1x512x64_0_2_3 (headRows o hs k)))))
        (constant (F := Ideal) S_ .f32 0x00000000#32) reducesTo_S2x512x512x64_S2x512x512_d3 h_S_))
      (broadcastInDim S2x512x512 ![] bcast_S_S2x512x512
        (Host.divf (F := Ideal) (constant (F := Ideal) S_ .f32 0x3F800000#32)
          (Host.sqrt (F := Ideal) (constant (F := Ideal) S_ .f32 0x42800000#32)))))

/-- The query rows repeated along the key axis read, at `(b, s, t, d)`, row `(b, s)` at `d`. -/
theorem qside_apply (X : S2x512x64.Idx → EReal) (b : Fin 2) (s t : Fin 512) (d : Fin 64) :
    broadcastInDim S2x512x512x64 ![0, 1, 2, 3] bcast_S2x512x1x64_S2x512x512x64_0_1_2_3
        (broadcastInDim S2x512x1x64 ![0, 1, 3] bcast_S2x512x64_S2x512x1x64_0_1_3 X) (ix4 b s t d)
      = X (ix3 b s d) := by
  refine (broadcastInDim_apply _ _ _ (ix4 b s t d) (ix4 b s (0 : Fin 1) d) (fun a => by
    match a with
    | ⟨0, _⟩ => rfl
    | ⟨1, _⟩ => rfl
    | ⟨2, _⟩ => rfl
    | ⟨3, _⟩ => rfl)).trans ?_
  exact broadcastInDim_apply _ _ X (ix4 b s (0 : Fin 1) d) (ix3 b s d) (fun a => by
    match a with
    | ⟨0, _⟩ => rfl
    | ⟨1, _⟩ => rfl
    | ⟨2, _⟩ => rfl)

/-- The key rows repeated along the query axis read, at `(b, s, t, d)`, row `(b, t)` at `d`. -/
theorem kside_apply (X : S2x512x64.Idx → EReal) (b : Fin 2) (s t : Fin 512) (d : Fin 64) :
    broadcastInDim S2x512x512x64 ![0, 1, 2, 3] bcast_S2x1x512x64_S2x512x512x64_0_1_2_3
        (broadcastInDim S2x1x512x64 ![0, 2, 3] bcast_S2x512x64_S2x1x512x64_0_2_3 X) (ix4 b s t d)
      = X (ix3 b t d) := by
  refine (broadcastInDim_apply _ _ _ (ix4 b s t d) (ix4 b (0 : Fin 1) t d) (fun a => by
    match a with
    | ⟨0, _⟩ => rfl
    | ⟨1, _⟩ => rfl
    | ⟨2, _⟩ => rfl
    | ⟨3, _⟩ => rfl)).trans ?_
  exact broadcastInDim_apply _ _ X (ix4 b (0 : Fin 1) t d) (ix3 b t d) (fun a => by
    match a with
    | ⟨0, _⟩ => rfl
    | ⟨1, _⟩ => rfl
    | ⟨2, _⟩ => rfl)

/-- The feature axis of a [2, 512, 512, 64] array can be summed away. -/
theorem sumsFeatures : S2x512x512x64.Reduces [3] S2x512x512 := by decide

/-- The index the host's sum reads at feature `d` of entry `(b, s, t)` is `(b, s, t, d)`. -/
theorem lift_eq (b : Fin 2) (s t : Fin 512) (d : Fin 64) : sumsFeatures.lift (ix3 b s t) d = ix4 b s t d := by
  funext a
  match a with
  | ⟨0, _⟩ => rfl
  | ⟨1, _⟩ => rfl
  | ⟨2, _⟩ => rfl
  | ⟨3, _⟩ => rfl

/-- The host's sum over the feature axis from the initial value `0`, at `(b, s, t)`: the initial value plus the sum over
    `d : Fin 64` of the operand at `(b, s, t, d)`. -/
theorem hostSum_apply (X : S2x512x512x64.Idx → EReal) (b : Fin 2) (s t : Fin 512) :
    Host.reduceAdd (F := Ideal) (φ := .f32) X (constant (F := Ideal) S_ .f32 0x00000000#32)
        reducesTo_S2x512x512x64_S2x512x512_d3 h_S_ (ix3 b s t)
      = Ideal.ofBits .f32 0x00000000#32 + ∑ d : Fin 64, X (ix4 b s t d) :=
  (Ideal.hostReduceAdd_single reducesTo_S2x512x512x64_S2x512x512_d3 sumsFeatures X (Ideal.ofBits .f32 0x00000000#32)
      (ix3 b s t)).trans
    (congrArg (Ideal.ofBits .f32 0x00000000#32 + ·) (Finset.sum_congr rfl fun d _ => congrArg X (lift_eq b s t d)))

/-- ONE HEAD AT AN INDEX: the specification's score at `(b, s, t, h)`, `h` the head the offset names. -/
theorem headScores_apply (o : Nat) (hs : S2x512x8x64.Slices ![0, 0, o, 0] S2x512x1x64) (q k : S2x512x8x64.Idx → EReal)
    (h : Fin 8) (ho : h.val = o) (b : Fin 2) (s t : Fin 512) (u : Fin 1) :
    headScores o hs q k (ix4 b s t u) = scores q k (ix4 b s t h) := by
  unfold headScores
  refine (broadcastInDim_apply _ _ _ (ix4 b s t u) (ix3 b s t) (fun a => by
    match a with
    | ⟨0, _⟩ => rfl
    | ⟨1, _⟩ => rfl
    | ⟨2, _⟩ => rfl)).trans ?_
  show (-(Host.reduceAdd (F := Ideal) (φ := .f32) _ (constant (F := Ideal) S_ .f32 0x00000000#32)
        reducesTo_S2x512x512x64_S2x512x512_d3 h_S_ (ix3 b s t)))
      * _ = _
  rw [hostSum_apply, scores_apply, scale_law]
  refine congrArg₂ (fun x y => -(Ideal.ofBits .f32 0x00000000#32 + x) * y) ?_ ?_
  · refine Finset.sum_congr rfl fun d _ => ?_
    show max (_ - _) (-(_ - _)) = _
    rw [qside_apply, kside_apply, headRows_apply o hs q h ho, headRows_apply o hs k h ho]
    rfl
  · exact broadcastInDim_apply _ _ _ (ix3 b s t) ix0 (fun a => a.elim0)

end Cert.ReferenceIdeal.Heads

end
-- ==== Proof.RValue.lean ====
/-
  The reference's result, as the specification of its two arguments.

  The reference's result is the eight heads' scores joined along a new last axis. Each head is the one text of
  `headScores` at the head's offset, so the result is the stack, over `n : Fin 8`, of `headScores n`; a stack of unit
  pieces read at `(b, s, t, h)` is piece `h` at `(b, s, t, 0)`, and that head at that entry is the specification's score.
-/
import proofs.«151528_j41214506173057_1_alg».proof.Proof.Gen.ReferenceIdeal.Run
import proofs.«151528_j41214506173057_1_alg».proof.Proof.RHead
import Idealize.ShloMosaic.Lib.Pipeline.Value

noncomputable section

namespace Cert.ReferenceIdeal.Stack

open Cert.ReferenceIdeal Cert.ReferenceIdeal.Gen Cert.ReferenceIdeal.Value Idealize.ShloMosaic Idealize.ShloMosaic.TcCoe
open Idealize.ShloMosaic.ValueIdx Idealize.SL.Sem Cert.L1Scores Cert.ReferenceIdeal.Heads

/-- Every head offset cuts one head out of the eight. -/
theorem headCut : ∀ n : Fin 8, S2x512x8x64.Slices ![0, 0, n.val, 0] S2x512x1x64 := by decide

/-- The eight heads of `q` and `k`, as the pieces of the stack. -/
abbrev heads (q k : S2x512x8x64.Idx → EReal) : List ((s : Shape) × (s.Idx → EReal)) :=
  List.ofFn fun n : Fin 8 => (⟨S2x512x512x1, headScores n.val (headCut n) q k⟩ : (s : Shape) × (s.Idx → EReal))

/-- The stack of eight unit pieces along the last axis has the result's shape. -/
theorem stackFits (q k : S2x512x8x64.Idx → EReal) :
    Shape.Concatenates ((heads q k).map (·.1)) S2x512x512x8 3 :=
  concatenates_S2x512x512x1_S2x512x512x1_S2x512x512x1_S2x512x512x1_S2x512x512x1_S2x512x512x1_S2x512x512x1_S2x512x512x1_S2x512x512x8_d3

variable (m : (ℓ : Loc nD τ sig) → Buf (Elt Ideal) ℓ)

/-- The reference's result term is the stack of the eight heads. -/
theorem res_eq_stack (c : Dev nD) :
    res_main_v122 (F := Ideal) m c
      = concatenate S2x512x512x8 3
          (heads (m ((c.tc : Thread nD τ).loc main_arg0)) (m ((c.tc : Thread nD τ).loc main_arg1)))
          (stackFits _ _) := by
  unfold res_main_v122
  rfl

/-- THE REFERENCE'S RESULT TERM is the specification of the arguments as launched. -/
theorem result_eq (c : Dev nD) :
    (res_main_v122 (F := Ideal) m c : S2x512x512x8.Idx → EReal)
      = scores (m ((c.tc : Thread nD τ).loc main_arg0)) (m ((c.tc : Thread nD τ).loc main_arg1)) := by
  rw [res_eq_stack]
  funext i
  obtain ⟨b, s, t, h, rfl⟩ : ∃ (b : Fin 2) (s t : Fin 512) (h : Fin 8), i = ix4 b s t h :=
    ⟨i 0, i 1, i 2, i 3, eq_ix4 i⟩
  refine (concatenate_ofFn_unit_apply (t := S2x512x512x8) (s₁ := S2x512x512x1) (3 : Fin 4)
    (fun n : Fin 8 => headScores n.val (headCut n) (m ((c.tc : Thread nD τ).loc main_arg0))
      (m ((c.tc : Thread nD τ).loc main_arg1)))
    (stackFits _ _) rfl rfl (ix4 b s t h) h rfl (ix4 b s t (0 : Fin 1)) (fun a ha => by
      match a with
      | ⟨0, _⟩ => rfl
      | ⟨1, _⟩ => rfl
      | ⟨2, _⟩ => rfl
      | ⟨3, _⟩ => exact absurd rfl ha)).trans ?_
  exact headScores_apply h.val (headCut h) _ _ h rfl b s t (0 : Fin 1)

end Cert.ReferenceIdeal.Stack

end
-- ==== Proof.lean ====
/-
  L1 attention scores: a tiled kernel against a per-head reference, equal over the extended reals.

  Both programs take queries `q` and keys `k` of shape [batch 2, position 512, head 8, feature 64] and return the scores
  [batch, query position, key position, head]:
      `scores q k (b, s, t, h) = -0.125 * Σ_d |q (b, s, h, d) - k (b, t, h, d)|`   (Proof/Spec.lean).

  The kernel program folds the heads into the batch axis ([16, 512, 64]), runs one call on a 16 x 4 x 4 grid whose
  point `(n, i, j)` writes the [128, 128] tile `(i, j)` of plane `n` — each entry the literal `-0.125` times the lane sum
  of the absolute differences of a query row and a key row (Proof/KBody.lean) —, and unfolds the result
  (Proof/KHost.lean). The tiles are the tiles of one whole-array function and cover the result (Proof/KBlocks.lean), so
  the program's result is the specification (Proof/KValue.lean).

  The reference computes each head separately — cut the head out, repeat query rows against key rows, sum the
  absolute differences from `0`, negate, multiply by `1 / sqrt 64` — and stacks the eight heads on a new last axis. One
  head is stated once, its offset a variable (Proof/RHead.lean); the stack read at `(b, s, t, h)` is head `h` at
  `(b, s, t)` (Proof/RValue.lean).

  The two sides meet in one law of the extended reals (Proof/Scale.lean): `sqrt 64 = 8` exactly, so the reference's
  factor is `1/8`, and `(-(1/8)) * S = (-(0 + S)) * (1/8)` for every `S`, infinite or not: only the sign's passage
  through a product and the product's commutativity are used, so the inputs' finiteness is never opened.

  The three frames are the generated ones (the reference's is its generated run with the result dropped); the
  idealization rewrote nothing, so `preserves` is `True`.
-/
import proofs.«151528_j41214506173057_1_alg».proof.Defs
import proofs.«151528_j41214506173057_1_alg».proof.Proof.Gen.Kernel
import proofs.«151528_j41214506173057_1_alg».proof.Proof.Gen.Kernel.Skeleton
import proofs.«151528_j41214506173057_1_alg».proof.Proof.Gen.Kernel.Launch
import proofs.«151528_j41214506173057_1_alg».proof.Proof.Gen.Kernel.Points
import proofs.«151528_j41214506173057_1_alg».proof.Proof.Gen.Kernel.Frame
import proofs.«151528_j41214506173057_1_alg».proof.Proof.Gen.KernelIdeal
import proofs.«151528_j41214506173057_1_alg».proof.Proof.Gen.KernelIdeal.Skeleton
import proofs.«151528_j41214506173057_1_alg».proof.Proof.Gen.KernelIdeal.Launch
import proofs.«151528_j41214506173057_1_alg».proof.Proof.Gen.KernelIdeal.Points
import proofs.«151528_j41214506173057_1_alg».proof.Proof.Gen.KernelIdeal.Frame
import proofs.«151528_j41214506173057_1_alg».proof.Proof.Gen.ReferenceIdeal
import proofs.«151528_j41214506173057_1_alg».proof.Proof.Gen.Pre_finite_inputs
import proofs.«151528_j41214506173057_1_alg».proof.Proof.Gen.ReferenceIdeal.Run
import proofs.«151528_j41214506173057_1_alg».proof.Proof.KValue
import proofs.«151528_j41214506173057_1_alg».proof.Proof.RValue
import Idealize.ShloMosaic.Adequacy
import Idealize.ShloMosaic.Init

noncomputable section

namespace Cert.Proof

open Idealize.ShloMosaic Idealize.SL.Sem

/-- The kernel program runs and keeps its arguments, at the word level. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification of those arguments. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Stack.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
